-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S784 : Shape := ⟨1, ![784]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S784 : S_.BroadcastsInDim S784 (![] : Fin 0 → Fin S784.rank)
  reducesTo_S784_S_d0 : S784.ReducesTo [0] S_

variable [Facts]

def fn {F : FTy → Type} [FloatOps F] (main_arg0 : FVec F S131072x784 .f32) (main_arg1 : FVec F S784 .f32) (main_arg2 : FVec F S784 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S784 .f32 := Host.absf main_arg1
  let main_cst_0 : FVec F S_ .f32 := constant S_ .f32 0x7F800000#32
  let main_v5 : FVec F S784 .f32 := broadcastInDim S784 ![] bcast_S_S784 main_cst_0
  let main_v6 : IVec S784 1 := cmpf .olt main_v4 main_v5
  let main_c_1 : IVec S_ 1 := constantI S_ 1 1#1
  let main_v7 : IVec S_ 1 := (fun x v => Host.reduce IntOp.andi x v reducesTo_S784_S_d0 h_S_) main_v6 main_c_1
  let main_v8 : IVec S_ 1 := andi main_v3 main_v7
  let main_v9 : FVec F S784 .f32 := Host.absf main_arg2
  let main_cst_2 : FVec F S_ .f32 := constant S_ .f32 0x7F800000#32
  let main_v10 : FVec F S784 .f32 := broadcastInDim S784 ![] bcast_S_S784 main_cst_2
  let main_v11 : IVec S784 1 := cmpf .olt main_v9 main_v10
  let main_c_3 : IVec S_ 1 := constantI S_ 1 1#1
  let main_v12 : IVec S_ 1 := (fun x v => Host.reduce IntOp.andi x v reducesTo_S784_S_d0 h_S_) main_v11 main_c_3
  let main_v13 : IVec S_ 1 := andi main_v8 main_v12
  main_v13
-- ==== Kernel.lean ====
abbrev S131072x784 : Shape := ⟨2, ![131072, 784]⟩
abbrev S784 : Shape := ⟨1, ![784]⟩
abbrev S1x784 : Shape := ⟨2, ![1, 784]⟩
abbrev S2048x784 : Shape := ⟨2, ![2048, 784]⟩

abbrev nBuf : Space → Nat
  | .hbm => 6
  | .vmem => 6
  | .smem => 0
  | _ => 0

abbrev bufTy : (tb : Table) → Fin (tcTables nBuf tb) → BufTy
  | .hbm, ⟨0, _⟩ => ⟨S131072x784, .f32⟩
  | .hbm, ⟨1, _⟩ => ⟨S784, .f32⟩
  | .hbm, ⟨2, _⟩ => ⟨S784, .f32⟩
  | .hbm, ⟨3, _⟩ => ⟨S1x784, .f32⟩
  | .hbm, ⟨4, _⟩ => ⟨S1x784, .f32⟩
  | .hbm, ⟨5, _⟩ => ⟨S131072x784, .f32⟩
  | .local _ .vmem, ⟨0, _⟩ => ⟨S2048x784, .f32⟩
  | .local _ .vmem, ⟨1, _⟩ => ⟨S2048x784, .f32⟩
  | .local _ .vmem, ⟨2, _⟩ => ⟨S1x784, .f32⟩
  | .local _ .vmem, ⟨3, _⟩ => ⟨S1x784, .f32⟩
  | .local _ .vmem, ⟨4, _⟩ => ⟨S2048x784, .f32⟩
  | .local _ .vmem, ⟨5, _⟩ => ⟨S2048x784, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S784_S1x784 : S784.ShapeCasts S1x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  inb_S2048x784_S2048x784_0_0 : ∀ a, (![0, 0] : Fin 2 → Nat) a + S2048x784.size a ≤ S2048x784.size a
  h_S2048x784 : 0 < S2048x784.numel
  broadcasts_S1x784_S2048x784 : S1x784.Broadcasts S2048x784
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S131072x784.size a
  hwx0_0 : ∀ i : grid0.Coords, EltTy.bits .f32 = 32 ∨ (Rect.block (s := S131072x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x784.size a ≤ S1x784.size a
  hwx0_1 : ∀ i : grid0.Coords, EltTy.bits .f32 = 32 ∨ (Rect.block (s := S1x784) S1x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x784.size a ≤ S1x784.size a
  hwx0_2 : ∀ i : grid0.Coords, EltTy.bits .f32 = 32 ∨ (Rect.block (s := S1x784) S1x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x784.size a ≤ S131072x784.size a
  hwx0_3 : ∀ i : grid0.Coords, EltTy.bits .f32 = 32 ∨ (Rect.block (s := S131072x784) S2048x784.size (cc0_transform_3 i) (hinb0_3 i)).WholeWords (EltTy.packing .f32)

variable [Facts₀]

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x784.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x784 : Shape := ⟨2, ![131072, 784]⟩
abbrev S784 : Shape := ⟨1, ![784]⟩
abbrev S_ : Shape := ⟨0, ![]⟩
abbrev S1x784 : Shape := ⟨2, ![1, 784]⟩

abbrev nBuf : Space → Nat
  | .hbm => 15
  | .vmem => 0
  | .smem => 0
  | _ => 0

abbrev bufTy : (tb : Table) → Fin (tcTables nBuf tb) → BufTy
  | .hbm, ⟨0, _⟩ => ⟨S131072x784, .f32⟩
  | .hbm, ⟨1, _⟩ => ⟨S784, .f32⟩
  | .hbm, ⟨2, _⟩ => ⟨S784, .f32⟩
  | .hbm, ⟨3, _⟩ => ⟨S_, .f32⟩
  | .hbm, ⟨4, _⟩ => ⟨S784, .f32⟩
  | .hbm, ⟨5, _⟩ => ⟨S784, .i1⟩
  | .hbm, ⟨6, _⟩ => ⟨S_, .f32⟩
  | .hbm, ⟨7, _⟩ => ⟨S784, .f32⟩
  | .hbm, ⟨8, _⟩ => ⟨S784, .f32⟩
  | .hbm, ⟨9, _⟩ => ⟨S_, .f32⟩
  | .hbm, ⟨10, _⟩ => ⟨S784, .f32⟩
  | .hbm, ⟨11, _⟩ => ⟨S784, .f32⟩
  | .hbm, ⟨12, _⟩ => ⟨S1x784, .f32⟩
  | .hbm, ⟨13, _⟩ => ⟨S131072x784, .f32⟩
  | .hbm, ⟨14, _⟩ => ⟨S131072x784, .f32⟩
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S_S784 : S_.BroadcastsInDim S784 (![] : Fin 0 → Fin S784.rank)
  bcast_S784_S1x784_1 : S784.BroadcastsInDim S1x784 (![1] : Fin 1 → Fin S1x784.rank)
  bcast_S1x784_S131072x784_0_1 : S1x784.BroadcastsInDim S131072x784 (![0, 1] : Fin 2 → Fin S131072x784.rank)

variable [Facts₀]

class Facts : Prop extends Facts₀ where

variable [Facts]
-- ==== Proof.Noise.lean ====
/-
  The function both programs compute. For a matrix `x` of 131072 rows and 784 columns and two vectors `u`, `g` of
  784 entries, the result adds to every row of `x` ONE noise vector: at column `k` it is `0.5 · g k` where
  `u k ≤ 0.2` and `0` elsewhere. The three constants are kept as the binary32 words the programs carry (the
  same words on both sides, so their values are never needed), and every operation is the float instance's own:
  nothing below depends on which instance the floats are read at.
-/
import Idealize.ShloMosaic.Lib.ValueIdx

noncomputable section

namespace Cert.NoiseAdd

open Idealize.ShloMosaic

variable {F : FTy → Type} [FloatOps F]

/-- The matrix's shape and the vectors' shape. -/
abbrev Mat : Shape := ⟨2, ![131072, 784]⟩
abbrev Row : Shape := ⟨1, ![784]⟩

/-- One entry of the noise vector, from the entries of `u` and `g` at its column: `0.5 · g` where `u ≤ 0.2`
    (an ordered comparison: false at a NaN), zero otherwise. -/
def noise (u g : F .f32) : F .f32 :=
  Scalar.select (FloatOps.cmpf .ole u (FloatOps.ofBits .f32 0x3E4CCCCD#32))
    (FloatOps.mulf (FloatOps.ofBits .f32 0x3F000000#32) g) (FloatOps.ofBits .f32 0x00000000#32)

/-- The column of a matrix index, as an index of the vectors. -/
def col (i : Mat.Idx) : Row.Idx := fun a => match a with | ⟨0, _⟩ => ⟨(i 1).val, (i 1).isLt⟩

theorem col_val (i : Mat.Idx) : (col i 0).val = (i 1).val := rfl

/-- The result: entry `(r, k)` is `x (r, k)` plus the noise of column `k`. -/
def noisy (x : Mat.Idx → F .f32) (u g : Row.Idx → F .f32) : Mat.Idx → F .f32 :=
  fun i => FloatOps.addf (x i) (noise (u (col i)) (g (col i)))

theorem noisy_apply (x : Mat.Idx → F .f32) (u g : Row.Idx → F .f32) (i : Mat.Idx) :
    noisy x u g i = FloatOps.addf (x i) (noise (u (col i)) (g (col i))) := rfl

end Cert.NoiseAdd

end
-- ==== Proof.Blocks.lean ====
/-
  What one grid point of the kernel writes back. The grid has 64 points; point `t` stages rows `2048·t … 2048·t + 2047`
  of `x` (all 784 columns) and, at every point, the two vectors `u` and `g` whole, each as a block of one row: the host
  reshaped them from 784 entries to a 1 × 784 array before the launch. The body's one store fills the output block; its
  entry at `(r, k)` is the sum of the `x` block's entry there and the select over the entries of the `u` and `g` rows at
  `(0, k)` (the generated reading of the store's payload). So the block point `t` writes back is block `t` of
  `noisy x u g`: row `r` of the block is row `2048·t + r` of the array, the column is the same, and the reshaped vectors
  read at `(0, k)` are the vectors at `k`.
-/
import proofs.«174505_j70102456206131_1_alg».proof.Proof.Gen.KernelIdeal.Value
import proofs.«174505_j70102456206131_1_alg».proof.Proof.Noise
import Idealize.ShloMosaic.Lib.Pipeline.Value
import Idealize.ShloMosaic.Lib.StableHlo.Run

noncomputable section

namespace Cert.KernelIdeal.NoiseValue

open Cert.KernelIdeal Cert.KernelIdeal.Gen Idealize.ShloMosaic Idealize.ShloMosaic.TcCoe Idealize.SL.Sem Cert.NoiseAdd
open Idealize.ShloMosaic.Pipeline (Dat)

variable {F : FTy → Type} [FloatOps F]
variable (m : (ℓ : Loc nD τ sig) → Buf (Elt F) ℓ) (ρ : Dev nD → PrngReg)

/-- The body's loads and its store are through the whole staging buffers: both offsets are zero. -/
theorem zero_offsets : (![0, 0] : Fin 2 → Nat) = fun _ => 0 := funext fun a => by fin_cases a <;> rfl

/-- The four index maps over the 64 points: the `x` window and the output window are both at block row `t`, block column
    `0`; the two vector windows stay at block `(0, 0)`. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the `u` window stages is the host's reshape of the argument `u` to one row. -/
theorem u_row (c : Dev nD) : (V m c main_v0 : S1x784.Idx → Elt F .f32)
    = shapeCast S1x784 (m ((c : Thread nD τ).loc main_arg1)) shapeCasts_S784_S1x784 := by
  dsimp only [Gen.V, Gen.hostOps0]; after_results; rfl

/-- The array the `g` window stages is the host's reshape of the argument `g` to one row. -/
theorem g_row (c : Dev nD) : (V m c main_v1 : S1x784.Idx → Elt F .f32)
    = shapeCast S1x784 (m ((c : Thread nD τ).loc main_arg2)) shapeCasts_S784_S1x784 := by
  dsimp only [Gen.V, Gen.hostOps0]; after_results; rfl

/-- Point `t` writes back block `t` of `noisy x u g`, with `x` as the region finds it and `u`, `g` the arguments. -/
theorem flushed_eq (c : Dev nD) (t : Fin cfg0.N) :
    (dats m 0 c).flushed 3 t = ((cfg0.win 3).blk t).view.read (Elt F)
      (noisy (V m c main_arg0) (m ((c : Thread nD τ).loc main_arg1)) (m ((c : Thread nD τ).loc main_arg2))) := by
  rw [Value.flushed3]
  unfold out0_3
  funext j
  refine (Value.canon3_eq (View.ld (iblk m c 0 t) r0_1) (View.ld (iblk m c 1 t) r0_0) (View.ld (iblk m c 2 t) r0_0) j).trans ?_
  obtain ⟨e00, e01, e10, e11, e20, e21, e30, e31⟩ := index_facts t
  have hj0 : (j 0).val < 2048 := (j 0).isLt
  have hj1 : (j 1).val < 784 := (j 1).isLt
  -- the `x` block at `(r, k)` is the array at row `2048·t + r`, column `k`: where the output block's entry lies
  have h0 : View.ld (iblk m c 0 t) r0_1 (Value.ix3_0 j) = V m c main_arg0 (((cfg0.win 3).blk t).view.emb j) := by
    rw [View.ld_unit_zero (S := S2048x784) zero_offsets]
    show V m c main_arg0 (((cfg0.win 0).blk t).view.emb (Value.ix3_0 j)) = V m c main_arg0 (((cfg0.win 3).blk t).view.emb j)
    congr 1; funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 784 + 1 * (j 1).val = win0_3.index t (1 : Fin 2) * 784 + 1 * (j 1).val; omega
  -- the `u` row at `(0, k)` is `u` at `k`, the column of the output block's entry
  have h1 : View.ld (iblk m c 1 t) r0_0 (Value.ix3_1 j)
      = m ((c : Thread nD τ).loc main_arg1) (col (((cfg0.win 3).blk t).view.emb j)) := by
    rw [View.ld_unit_zero (S := S1x784) zero_offsets]
    show (V m c main_v0 : S1x784.Idx → Elt F .f32) (((cfg0.win 1).blk t).view.emb (Value.ix3_1 j)) = _
    rw [u_row]
    refine (shapeCast_addUnit_apply ![784] _ _ _).trans ?_
    congr 1; funext a; apply Fin.ext
    match a with
    | ⟨0, _⟩ => show win0_1.index t (1 : Fin 2) * 784 + 1 * (j 1).val = win0_3.index t (1 : Fin 2) * 784 + 1 * (j 1).val; omega
  -- and the same for `g`
  have h2 : View.ld (iblk m c 2 t) r0_0 (Value.ix3_2 j)
      = m ((c : Thread nD τ).loc main_arg2) (col (((cfg0.win 3).blk t).view.emb j)) := by
    rw [View.ld_unit_zero (S := S1x784) zero_offsets]
    show (V m c main_v1 : S1x784.Idx → Elt F .f32) (((cfg0.win 2).blk t).view.emb (Value.ix3_2 j)) = _
    rw [g_row]
    refine (shapeCast_addUnit_apply ![784] _ _ _).trans ?_
    congr 1; funext a; apply Fin.ext
    match a with
    | ⟨0, _⟩ => show win0_2.index t (1 : Fin 2) * 784 + 1 * (j 1).val = win0_3.index t (1 : Fin 2) * 784 + 1 * (j 1).val; omega
  show FloatOps.addf (View.ld (iblk m c 0 t) r0_1 (Value.ix3_0 j))
      (Scalar.select (FloatOps.cmpf .ole (View.ld (iblk m c 1 t) r0_0 (Value.ix3_1 j)) (Scalar.ofBits .f32 0x3E4CCCCD#32))
        (FloatOps.mulf (Scalar.ofBits .f32 0x3F000000#32) (View.ld (iblk m c 2 t) r0_0 (Value.ix3_2 j)))
        (Scalar.ofBits .f32 0x00000000#32)) = _
  rw [h0, h1, h2]
  rfl

end Cert.KernelIdeal.NoiseValue

end
-- ==== Proof.Whole.lean ====
/-
  From the blocks to the array. The output's 64 blocks of 2048 rows tile the 131072 rows (and each block spans all 784
  columns), so every index of the output lies in the block of the point `row / 2048`; every point writes its block back.
  Hence after the run the output array is `noisy x u g` whole, and the kernel's run ends with its result there and its
  three arguments as launched.
-/
import proofs.«174505_j70102456206131_1_alg».proof.Proof.Blocks

noncomputable section

namespace Cert.KernelIdeal.NoiseValue

open Cert.KernelIdeal Cert.KernelIdeal.Gen Idealize.ShloMosaic Idealize.ShloMosaic.TcCoe Idealize.SL.Sem Cert.NoiseAdd
open Idealize.ShloMosaic.Pipeline (Dat)

variable {F : FTy → Type} [FloatOps F]
variable (m : (ℓ : Loc nD τ sig) → Buf (Elt F) ℓ) (ρ : Dev nD → PrngReg)

/-- An index of the output is in point `t`'s block iff each coordinate is in the block's range on its axis. -/
theorem mem_block (t : Fin cfg0.N) (i : S131072x784.Idx) :
    i ∈ ((cfg0.win 3).blk t).view.set ↔ ∀ a : Fin 2, win0_3.index t a * S2048x784.size a ≤ (i a).val
      ∧ (i a).val < win0_3.index t a * S2048x784.size a + S2048x784.size a := by
  show i ∈ ((View.whole main_v2).slice (win0_3.rect t)).set ↔ _
  rw [View.set_slice_whole, Rect.mem_set_unit]
  exact Iff.rfl

/-- Every index of the output is in the block of a point that writes back: the point `row / 2048`. -/
theorem cover (i : S131072x784.Idx) :
    ∃ t : Fin cfg0.N, (cfg0.win 3).flush t = true ∧ i ∈ ((cfg0.win 3).blk t).view.set := by
  have hi0 : (i 0).val < 131072 := (i 0).isLt
  have hi1 : (i 1).val < 784 := (i 1).isLt
  have ht : (i 0).val / 2048 < cfg0.N := lt_of_lt_of_eq (by omega : (i 0).val / 2048 < 64) N_0.symm
  obtain ⟨-, -, -, -, -, -, e30, e31⟩ := index_facts ⟨(i 0).val / 2048, ht⟩
  have e30' : win0_3.index ⟨(i 0).val / 2048, ht⟩ (0 : Fin 2) = (i 0).val / 2048 := e30
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 784 ≤ (i 1).val
      ∧ (i 1).val < win0_3.index ⟨(i 0).val / 2048, ht⟩ (1 : Fin 2) * 784 + 784
    omega

/-- After the run the output array is `noisy` of the three arguments as launched (no host operation before the region
    writes `x`). -/
theorem final (c : Dev nD) : (dats m 0 c).arrAt 3 cfg0.N
    = noisy (m ((c : Thread nD τ).loc main_arg0)) (m ((c : Thread nD τ).loc main_arg1)) (m ((c : Thread nD τ).loc main_arg2)) := by
  have h := (dats m 0 c).arrAt_eq_of_cover 3
    (noisy (V m c main_arg0) (m ((c : Thread nD τ).loc main_arg1)) (m ((c : Thread nD τ).loc main_arg2)))
    (fun t _ => flushed_eq m c t) cover
  rw [V_main_arg0] at h
  exact h

/-- The kernel's run: it terminates with the result array at `noisy x u g` and the arguments unchanged. -/
theorem run : θ_run defs (onTc (τ := τ) (main (F := F))) ⟨m, fun _ => 0, ρ⟩ fun r => ∀ c : Dev nD,
      r.2.mem ((c : Thread nD τ).loc main_v2)
        = noisy (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.NoiseValue

end
-- ==== Proof.RefNoise.lean ====
/-
  The reference program's result, read entry by entry. The host computes the noise vector once — a comparison of `u`
  with the broadcast constant `0.2`, the product of the broadcast constant `0.5` with `g`, a select against the
  broadcast zero —, broadcasts it along a new leading axis of extent one and then over the 131072 rows, and adds it to
  `x`. Read at a matrix index `(r, k)`, every broadcast reads its operand at column `k` (a scalar's broadcast at its
  one index), so the entry is `x (r, k)` plus the noise of column `k`: the specification's `noisy`.
-/
import proofs.«174505_j70102456206131_1_alg».proof.Proof.Gen.ReferenceIdeal.Read
import proofs.«174505_j70102456206131_1_alg».proof.Proof.Noise

noncomputable section

namespace Cert.ReferenceIdeal.NoiseValue

open Idealize.ShloMosaic Cert.ReferenceIdeal Cert.ReferenceIdeal.Read Cert.NoiseAdd

variable {F : FTy → Type} [FloatOps F]

/-- The two broadcasts between the noise vector and the matrix read column `k` of the vector at `(r, k)`. -/
theorem col_of_broadcasts (i : S131072x784.Idx) : idx_main_v5 (idx_main_v6 i) = col i := by
  funext a; match a with | ⟨0, _⟩ => rfl

/-- The reference's last stage, as a function of the three arguments, is `noisy`. -/
theorem result_eq (x : (⟨S131072x784, .f32⟩ : BufTy).Contents (Elt F)) (u g : (⟨S784, .f32⟩ : BufTy).Contents (Elt F)) :
    val_main_v7 (F := F) x u g = noisy x u g := by
  funext i
  rw [val_main_v7_apply, val_main_v6_apply, val_main_v5_apply, val_main_v4_apply, val_main_v1_apply, val_main_v3_apply,
    val_main_call0_v0_apply, val_main_v0_apply, val_main_v2_apply, val_main_cst_apply, val_main_cst_0_apply,
    val_main_cst_1_apply, col_of_broadcasts]
  rfl

end Cert.ReferenceIdeal.NoiseValue

end
-- ==== Proof.lean ====
/-
  The certificate of a row-wise noise add. The kernel adds to every row of a 131072 × 784 matrix `x` one vector of 784
  entries: `0.5 · g k` at the columns where `u k ≤ 0.2`, zero elsewhere; it walks the rows in 64 blocks of 2048 and
  recomputes the vector at every block from `u` and `g`, which the host reshaped to one row each. The reference computes
  the vector once on the host, broadcasts it over the rows and adds. Both carry the same three constants as the same
  binary32 words and apply the same operations in the same order to each entry, so the two results are one function
  of the arguments, `Cert.NoiseAdd.noisy`, entry by entry — no algebraic law and no finiteness of the inputs is used.
  The kernel's side is Proof/Blocks.lean (what a grid point writes back) and Proof/Whole.lean (the blocks tile the
  output); the reference's side is Proof/RefNoise.lean. The idealization rewrote no operation, so `preserves` is trivial;
  the three frames are the generated frame runs.
-/
import proofs.«174505_j70102456206131_1_alg».proof.Defs
import proofs.«174505_j70102456206131_1_alg».proof.Proof.Gen.Kernel
import proofs.«174505_j70102456206131_1_alg».proof.Proof.Gen.Kernel.Skeleton
import proofs.«174505_j70102456206131_1_alg».proof.Proof.Gen.Kernel.Launch
import proofs.«174505_j70102456206131_1_alg».proof.Proof.Gen.Kernel.Points
import proofs.«174505_j70102456206131_1_alg».proof.Proof.Gen.Kernel.Frame
import proofs.«174505_j70102456206131_1_alg».proof.Proof.Gen.KernelIdeal
import proofs.«174505_j70102456206131_1_alg».proof.Proof.Gen.KernelIdeal.Skeleton
import proofs.«174505_j70102456206131_1_alg».proof.Proof.Gen.KernelIdeal.Launch
import proofs.«174505_j70102456206131_1_alg».proof.Proof.Gen.KernelIdeal.Points
import proofs.«174505_j70102456206131_1_alg».proof.Proof.Gen.KernelIdeal.Frame
import proofs.«174505_j70102456206131_1_alg».proof.Proof.Gen.ReferenceIdeal
import proofs.«174505_j70102456206131_1_alg».proof.Proof.Gen.Pre_finite_inputs
import proofs.«174505_j70102456206131_1_alg».proof.Proof.Gen.KernelIdeal.Value
import proofs.«174505_j70102456206131_1_alg».proof.Proof.Gen.ReferenceIdeal.Run
import proofs.«174505_j70102456206131_1_alg».proof.Proof.Gen.ReferenceIdeal.Read
import proofs.«174505_j70102456206131_1_alg».proof.Proof.Whole
import proofs.«174505_j70102456206131_1_alg».proof.Proof.RefNoise
import Idealize.ShloMosaic.Adequacy
import Idealize.ShloMosaic.Init

noncomputable section

namespace Cert.Proof

open Idealize.ShloMosaic Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on `x`, `u` and `g`, both programs end with `noisy x u g` in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.NoiseValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.NoiseValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
